-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x64 : Shape := ⟨2, ![1024, 64]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 12
  | .vmem => 10
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x64, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x8192, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  inb_S1024x64_S1024x64_0_0 : ∀ a, (![0, 0] : Fin 2 → Nat) a + S1024x64.size a ≤ S1024x64.size a
  h_S1024x64 : 0 < S1024x64.numel
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x64, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x64_S8192x64_S8192x8192_1_1_0_0_n_n_wf : DotDims.WF S8192x64 S8192x64 S8192x8192 [1] [1] [0] [0] [] []

variable [Facts₀]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf

class Facts : Prop extends Facts₀ where

variable [Facts]
-- ==== Proof.RbfSpec.lean ====
/-
  The Gaussian (radial basis function) kernel matrix of two point sets, as ONE function on the extended reals.

  Two sets of 8192 points with 64 coordinates each, `x` and `y`, are given as arrays indexed by (point, coordinate).
  For a point `b` of `x` and a point `a` of `y` the squared distance is expanded as

      ‖x_b − y_a‖² = ‖x_b‖² + ‖y_a‖² − 2 · ⟨x_b, y_a⟩,

  it is floored at zero, and the entry of the matrix is `exp (−1 · max (…) 0)`. Both programs evaluate exactly this
  expression, in this order of operations and with these three literals (2, 0 and −1, kept as the binary words
  they were printed with, so that neither side ever evaluates them); they differ only in how the matrix is cut into
  tiles and in how the row of squared norms is laid out. Over the extended reals no law beyond reading each
  operation at an index is needed: the sums run over the same 64 coordinates on both sides, in the same order of
  factors, so finiteness of the inputs is never used.
-/
import Idealize.ShloMosaic.PureOps.Ideal
import Idealize.ShloMosaic.PureOps.Ideal.Laws
import Idealize.ShloMosaic.Lib.ValueIdx

noncomputable section

open scoped BigOperators

namespace Cert.Rbf

open Idealize.ShloMosaic Idealize.ShloMosaic.ValueIdx

/-- A point set: 8192 points, 64 coordinates each. -/
abbrev SPts : Shape := ⟨2, ![8192, 64]⟩
/-- The kernel matrix: one entry per pair of points. -/
abbrev SGram : Shape := ⟨2, ![8192, 8192]⟩

/-- The squared Euclidean norm of point `r`: the sum of the squares of its 64 coordinates, accumulated from the
    zero word (the sum's initial value, kept as printed). -/
def sqnorm (x : SPts.Idx → EReal) (r : Fin 8192) : EReal :=
  Ideal.ofBits .f32 0x00000000#32 + ∑ k : Fin 64, x (ix2 r k) * x (ix2 r k)

/-- The inner product of point `b` of `x` with point `a` of `y`. -/
def inner (x y : SPts.Idx → EReal) (b a : Fin 8192) : EReal :=
  ∑ k : Fin 64, x (ix2 b k) * y (ix2 a k)

/-- The floored squared distance between point `b` of `x` and point `a` of `y`, by the expansion
    ‖x_b‖² + ‖y_a‖² − 2⟨x_b, y_a⟩. -/
def distSq (x y : SPts.Idx → EReal) (b a : Fin 8192) : EReal :=
  max ((sqnorm x b + sqnorm y a) - Ideal.ofBits .f32 0x40000000#32 * inner x y b a) (Ideal.ofBits .f32 0x00000000#32)

/-- One entry of the kernel matrix: `exp (−1 · distSq)`. -/
def entry (x y : SPts.Idx → EReal) (b a : Fin 8192) : EReal :=
  Ideal.exp (Ideal.ofBits .f32 0xBF800000#32 * distSq x y b a)

/-- The kernel matrix as one function of the two point sets, index by index. -/
def gram (x y : SPts.Idx → EReal) : SGram.Idx → EReal := fun i => entry x y (i 0) (i 1)

theorem gram_apply (x y : SPts.Idx → EReal) (b a : Fin 8192) : gram x y (ix2 b a) = entry x y b a := rfl

end Cert.Rbf

end
-- ==== Proof.ReferenceGram.lean ====
/-
  The reference computes the kernel matrix of the specification.

  The reference forms the squared norms of the points of `x` and of `y` (a sum of 64 squares each, from zero),
  the matrix of all inner products ⟨x_b, y_a⟩ in one product contracting the coordinate axis of both arrays, repeats
  the norms of `x` along the columns and those of `y` along the rows, and then applies, entry by entry,
  `exp (−1 · max ((‖x_b‖² + ‖y_a‖²) − 2⟨x_b, y_a⟩) 0)`. Reading every one of its operations at the index `(b, a)`
  gives the specification's entry: the only work is to see that each operand is read where the specification reads
  it — the norms at point `b` resp. `a`, the inner product's factors at `(b, k)` and `(a, k)`.
-/
import proofs.«103255_j65481071407813_1_alg».proof.Proof.Gen.ReferenceIdeal.Read
import proofs.«103255_j65481071407813_1_alg».proof.Proof.RbfSpec

noncomputable section

open scoped BigOperators

namespace Cert.ReferenceIdeal.RefValue

open Cert.ReferenceIdeal Cert.ReferenceIdeal.Read Idealize.ShloMosaic Idealize.ShloMosaic.ValueIdx Cert.Rbf

/-- The reference's result, as a function of its two argument arrays, is the specification's kernel matrix. -/
theorem result_eq_gram (x y : (⟨S8192x64, .f32⟩ : BufTy).Contents (Elt Ideal)) :
    val_main_v17 (F := Ideal) x y = gram x y := by
  funext i
  obtain ⟨b, a, rfl⟩ : ∃ (b a : Fin 8192), i = ix2 b a := ⟨i 0, i 1, eq_ix2 i⟩
  -- where each operand is read: the norms at the entry's own row resp. column, the product's factors at (b, k), (a, k)
  have ex : ∀ k : Fin 64, idx_main_v1 (idx_main_v5 (idx_main_v7 (ix2 b a))) k = ix2 b k := fun k =>
    funext fun ax => Fin.ext (by match ax with | ⟨0, _⟩ => rfl | ⟨1, _⟩ => rfl)
  have ey : ∀ k : Fin 64, idx_main_v3 (idx_main_v6 (idx_main_v8 (ix2 b a))) k = ix2 a k := fun k =>
    funext fun ax => Fin.ext (by match ax with | ⟨0, _⟩ => rfl | ⟨1, _⟩ => rfl)
  have el : ∀ k : Fin 64, lidx_main_v4 (ix2 b a) k = ix2 b k := fun k =>
    funext fun ax => Fin.ext (by match ax with | ⟨0, _⟩ => rfl | ⟨1, _⟩ => rfl)
  have er : ∀ k : Fin 64, ridx_main_v4 (ix2 b a) k = ix2 a k := fun k =>
    funext fun ax => Fin.ext (by match ax with | ⟨0, _⟩ => rfl | ⟨1, _⟩ => rfl)
  rw [val_main_v17_apply, val_main_v16_apply, val_main_v15_apply, val_main_cst_3_apply, val_main_v14_apply,
    val_main_v13_apply, val_main_cst_2_apply, val_main_v12_apply, val_main_v9_apply, val_main_v7_apply,
    val_main_v5_apply, val_main_v1_apply, val_main_cst_apply, val_main_v8_apply, val_main_v6_apply,
    val_main_v3_apply, val_main_cst_0_apply, val_main_v11_apply, val_main_v10_apply, val_main_cst_1_apply,
    val_main_v4_apply]
  simp only [val_main_v0_apply, val_main_v2_apply, ex, ey, el, er]
  rfl

end Cert.ReferenceIdeal.RefValue

end
-- ==== Proof.LibBroadcastColumn.lean ====
/-
  A column broadcast over many columns, read at an index.

  A `[a, 1]` array (one value per row, the unit axis kept) broadcast to `[a, b]` reads, at row `p` and column
  `c`, the operand's value for row `p`: the broadcast repeats each row's value along the new columns. This is
  the companion, for the leading axis, of the one-row form `[1, b] → [a, b]` (which reads the operand's one row at
  column `c`). Stated for arbitrary extents `a` and `b` and any element type.
-/
import Idealize.ShloMosaic.Lib.ValueIdx
import Idealize.ShloMosaic.Lib.Pipeline.Value

noncomputable section

namespace Idealize.ShloMosaic.ValueIdx

open Idealize.ShloMosaic

/-- A `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.TileEntry.lean ====
/-
  One entry of one tile, as the kernel body computes it.

  At a grid point the body holds four blocks: 1024 points of `x` (`xs`, 1024 × 64), 1024 points of `y` (`ys`,
  1024 × 64), the squared norms of those points of `x` as a column (`xn`, 1024 × 1) and the squared norms of those
  points of `y` as a row (`yn`, 1 × 1024). Its one stored value is a 1024 × 1024 tile. Read at row `p` and column
  `q`, the tile's entry is

      exp (−1 · max ((xn[p] + yn[q]) − 2 · Σ_k xs[p,k] · ys[q,k]) 0):

  the narrowing of the two point blocks to a shorter float format is the identity on extended reals; the matrix
  product into a zero accumulator is the plain sum over the 64 coordinates, contracting the LAST axis of both
  blocks (so the second block is read at `(q, k)`, not `(k, q)`); the two shape casts are to the same shape; the
  column of norms is repeated along the columns and the row of norms along the rows.
-/
import proofs.«103255_j65481071407813_1_alg».proof.Proof.Gen.KernelIdeal.Skeleton
import proofs.«103255_j65481071407813_1_alg».proof.Proof.LibBroadcastColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-! ## The matrix product of two point blocks, read at an entry -/

/-- The left operand's index at output `i` and contraction index `q`: its row is the output's row. -/
theorem lhs_tile_0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
/-- Its column is the contraction coordinate. -/
theorem lhs_tile_1 (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q
/-- The right operand's index: its ROW is the output's column (both blocks are contracted along their last axis). -/
theorem rhs_tile_0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
/-- Its column is the contraction coordinate. -/
theorem rhs_tile_1 (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

/-- The product of two blocks of points into a zero accumulator, at row `p` and column `q`: the inner product of
    point `p` of the first block with point `q` of the second. -/
theorem tileDot_apply {φ : FTy} (xs ys : FVec Ideal S1024x64 φ) (p q : Fin 1024) :
    matmul dot_S1024x64_S1024x64_S1024x1024_1_1_0_0_n_n none xs ys (constant S1024x1024 .f32 0x00000000#32) (ix2 p q)
      = ∑ k : Fin 64, xs (ix2 p k) * ys (ix2 q k) := by
  simp only [matmul]
  rw [Ideal.matmul_constant_zero_apply, ← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx (ix2 p q) ((contrEquiv1 dot_S1024x64_S1024x64_S1024x1024_1_1_0_0_n_n 64 rfl rfl).symm k) = ix2 p k := funext fun a => Fin.ext (by
    match a with
    | ⟨0, _⟩ => exact lhs_tile_0 _ _
    | ⟨1, _⟩ => exact (lhs_tile_1 _ _).trans hk)
  have er : dot_S1024x64_S1024x64_S1024x1024_1_1_0_0_n_n.rhsIdx (ix2 p q) ((contrEquiv1 dot_S1024x64_S1024x64_S1024x1024_1_1_0_0_n_n 64 rfl rfl).symm k) = ix2 q k := funext fun a => Fin.ext (by
    match a with
    | ⟨0, _⟩ => exact rhs_tile_0 _ _
    | ⟨1, _⟩ => exact (rhs_tile_1 _ _).trans hk)
  rw [el, er]

/-! ## The stored tile, read at an entry -/

/-- The tile's entry at row `p`, column `q`, from the four blocks the body loads. -/
theorem tile_apply (xs ys : Vec Ideal S1024x64 .f32) (xn : Vec Ideal S1024x1 .f32) (yn : Vec Ideal S1x1024 .f32) (p q : Fin 1024) :
    k0_pay1 (F := Ideal) xs ys xn yn (ix2 p q)
      = Ideal.exp (Ideal.ofBits .f32 0xBF800000#32
          * max ((xn (ix2 p (0 : Fin 1)) + yn (ix2 (0 : Fin 1) q))
                  - Ideal.ofBits .f32 0x40000000#32 * ∑ k : Fin 64, xs (ix2 p k) * ys (ix2 q k))
                (Ideal.ofBits .f32 0x00000000#32)) := by
  unfold k0_pay1
  simp only [shapeCast_self]
  show Ideal.exp (Ideal.ofBits .f32 0xBF800000#32
      * max ((broadcastTo S1024x1024 xn broadcasts_S1024x1_S1024x1024 (ix2 p q) + broadcastTo S1024x1024 yn broadcasts_S1x1024_S1024x1024 (ix2 p q))
          - Ideal.ofBits .f32 0x40000000#32 * matmul (F := Ideal) dot_S1024x64_S1024x64_S1024x1024_1_1_0_0_n_n none (truncf .bf16 xs bitsLt_bf16_f32) (truncf .bf16 ys bitsLt_bf16_f32) (constant S1024x1024 .f32 0x00000000#32) (ix2 p q))
        (Ideal.ofBits .f32 0x00000000#32)) = _
  rw [broadcastTo_a1_ab_apply, broadcastTo_1b_ab_apply, tileDot_apply]
  rfl

end Cert.KernelIdeal.Tile

end
-- ==== Proof.KernelNorms.lean ====
/-
  The two arrays of squared norms the kernel's region is launched on.

  Before its one tiled region the kernel's program forms, with ordinary array operations, the squared norm of every
  point of `x` as a COLUMN (8192 × 1) and the squared norm of every point of `y` as a ROW (1 × 8192): a sum of 64
  squares per point from zero, the unit axis added by a broadcast, and for the row a transpose of the column. Read
  at `(r, 0)` resp. `(0, r)` both are the specification's squared norm of point `r`. The region stages these two
  arrays (its third and fourth windows) beside the point sets themselves.
-/
import proofs.«103255_j65481071407813_1_alg».proof.Proof.Gen.KernelIdeal.Frame
import proofs.«103255_j65481071407813_1_alg».proof.Proof.RbfSpec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

open scoped BigOperators

namespace Cert.KernelIdeal.Norms

open Cert.KernelIdeal Cert.KernelIdeal.Gen Idealize.ShloMosaic Idealize.ShloMosaic.TcCoe Idealize.ShloMosaic.ValueIdx Idealize.SL.Sem
open Idealize.ShloMosaic.StableHlo Cert.Rbf

/-! ## The squared norms as arrays, read at a point -/

/-- The vector of squared norms of a point set: the sum over the coordinate axis of the squares, from zero. -/
abbrev normVec (x : FVec Ideal S8192x64 .f32) : FVec Ideal S8192 .f32 :=
  Host.reduceAdd (mulf x x) (constant S_ .f32 0x00000000#32) reducesTo_S8192x64_S8192_d1 h_S_

/-- At point `r` it is the specification's squared norm. -/
theorem normVec_apply (x : FVec Ideal S8192x64 .f32) (r : Fin 8192) : normVec x (ix1 r) = sqnorm x r := by
  unfold normVec sqnorm
  simp only [Host.reduceAdd, Ideal.hostReduceAdd_def]
  rw [Ideal.hostReduceAdd_single reducesTo_S8192x64_S8192_d1 (by decide)]
  refine congrArg₂ (· + ·) rfl (Finset.sum_congr rfl fun k _ => ?_)
  have e : (Shape.Reduces.lift (s := S8192x64) (a := (1 : Fin 2)) (t := S8192) (by decide) (ix1 r) k) = ix2 r k :=
    funext fun ax => Fin.ext (by match ax with | ⟨0, _⟩ => rfl | ⟨1, _⟩ => rfl)
  show (mulf x x) _ = _
  rw [e]
  rfl

/-- The norms as a column (the unit axis appended): at `(r, 0)` the norm of point `r`. -/
theorem column_apply (v : FVec Ideal S8192 .f32) (r : Fin 8192) :
    broadcastInDim S8192x1 ![0] bcast_S8192_S8192x1_0 v (ix2 r (0 : Fin 1)) = v (ix1 r) :=
  broadcastInDim_apply _ bcast_S8192_S8192x1_0 v (ix2 r (0 : Fin 1)) (ix1 r) (fun a => match a with
    | ⟨0, _⟩ => by show r.val = if (8192 : Nat) = 1 then 0 else r.val; rw [if_neg (by decide)])

/-- The norms as a row (the column transposed): at `(0, r)` the norm of point `r`. -/
theorem row_apply (v : FVec Ideal S8192 .f32) (r : Fin 8192) :
    transpose S1x8192 [1, 0] (broadcastInDim S8192x1 ![0] bcast_S8192_S8192x1_0 v) transposes_S8192x1_S1x8192_1_0 (ix2 (0 : Fin 1) r)
      = v (ix1 r) := by
  rw [transpose_ix2_apply]
  exact column_apply v r

/-! ## The arrays the region finds -/

variable (m : (ℓ : Loc nD τ sig) → Buf (Elt Ideal) ℓ)

/-- The first argument array as launched, at its literal type. -/
abbrev xarr (c : Dev nD) : FVec Ideal S8192x64 .f32 := m ((c : Thread nD τ).loc main_arg0)
/-- The second argument array as launched, at its literal type. -/
abbrev yarr (c : Dev nD) : FVec Ideal S8192x64 .f32 := m ((c : Thread nD τ).loc main_arg1)

/-- The third window's array when the region is entered: the column of squared norms of `x`. -/
theorem V_xnorms (c : Dev nD) :
    (V m c main_v2 : S8192x1.Idx → EReal) = broadcastInDim S8192x1 ![0] bcast_S8192_S8192x1_0 (normVec (xarr m c)) := by
  dsimp only [V, hostOps0]
  after_results

/-- The fourth window's array when the region is entered: the row of squared norms of `y`. -/
theorem V_ynorms (c : Dev nD) :
    (V m c main_v6 : S1x8192.Idx → EReal)
      = transpose S1x8192 [1, 0] (broadcastInDim S8192x1 ![0] bcast_S8192_S8192x1_0 (normVec (yarr m c))) transposes_S8192x1_S1x8192_1_0 := by
  dsimp only [V, hostOps0]
  after_results

/-- Read at `(r, 0)`: the squared norm of point `r` of `x`. -/
theorem V_xnorms_apply (c : Dev nD) (r : Fin 8192) :
    (V m c main_v2 : S8192x1.Idx → EReal) (ix2 r (0 : Fin 1)) = sqnorm (xarr m c) r := by
  rw [V_xnorms, column_apply, normVec_apply]

/-- Read at `(0, r)`: the squared norm of point `r` of `y`. -/
theorem V_ynorms_apply (c : Dev nD) (r : Fin 8192) :
    (V m c main_v6 : S1x8192.Idx → EReal) (ix2 (0 : Fin 1) r) = sqnorm (yarr m c) r := by
  rw [V_ynorms, row_apply, normVec_apply]

end Cert.KernelIdeal.Norms

end
-- ==== Proof.KernelGram.lean ====
/-
  From tiles to the whole matrix: the kernel's result array is the specification's kernel matrix.

  The region's grid has 8 × 8 points. At the point with block coordinates `(I, J)` it stages points
  `1024·I … 1024·I + 1023` of `x` (and their squared norms, a 1024 × 1 piece of the column), points
  `1024·J … 1024·J + 1023` of `y` (and their squared norms, a 1 × 1024 piece of the row), and writes back the
  1024 × 1024 tile at rows `1024·I …`, columns `1024·J …` of the result. So the tile's entry `(p, q)` is the
  specification's entry for point `1024·I + p` of `x` and point `1024·J + q` of `y`: the tile at `(I, J)` is block
  `(I, J)` of ONE whole-matrix function. The 64 tiles cover the matrix (the tile holding row `r`, column `s` is the
  one at `(r / 1024, s / 1024)`), hence the array after the run is that function everywhere.
-/
import proofs.«103255_j65481071407813_1_alg».proof.Proof.Gen.KernelIdeal.Value
import proofs.«103255_j65481071407813_1_alg».proof.Proof.TileEntry
import proofs.«103255_j65481071407813_1_alg».proof.Proof.KernelNorms
import proofs.«103255_j65481071407813_1_alg».proof.Proof.RbfSpec
import Idealize.ShloMosaic.Lib.ValueIdx
import Idealize.ShloMosaic.Lib.Pipeline.Value

noncomputable section

open scoped BigOperators

namespace Cert.KernelIdeal.GramValue

open Cert.KernelIdeal Cert.KernelIdeal.Gen Idealize.ShloMosaic Idealize.ShloMosaic.TcCoe Idealize.ShloMosaic.ValueIdx Idealize.SL.Sem
open Idealize.ShloMosaic.Pipeline (Dat)
open Cert.Rbf Cert.KernelIdeal.Norms Cert.KernelIdeal.Tile

variable (m : (ℓ : Loc nD τ sig) → Buf (Elt Ideal) ℓ) (ρ : Dev nD → PrngReg)

/-! ## Where each window's block lies -/

theorem zero_offsets : (![0, 0] : Fin 2 → Nat) = fun _ => 0 := funext fun a => by fin_cases a <;> rfl

/-- The printed index maps, decided over the 64 grid points: the blocks of `x` and of its norms move with the
    tile's ROW block, the blocks of `y` and of its norms with the tile's COLUMN block, the other block coordinate of
    each is zero, and both of the tile's block coordinates are below 8. -/
theorem block_coords : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 7 ∧ win0_4.index t (1 : Fin 2) ≤ 7 :=
  (by decide +kernel : ∀ t : Fin grid0.N, _)

/-- Every pair of block coordinates below 8 is some grid point's. -/
theorem block_onto : ∀ (I J : Fin 8), ∃ t : Fin cfg0.N, win0_4.index t = ![I.val, J.val] :=
  (by decide +kernel : ∀ (I J : Fin 8), ∃ t : Fin grid0.N, win0_4.index t = ![I.val, J.val])

/-- The point of `x` that row `p` of the tile at grid point `t` belongs to. -/
def rowPt (t : Fin cfg0.N) (p : Fin 1024) : Fin 8192 :=
  ⟨win0_4.index t (0 : Fin 2) * 1024 + p.val, by
    have h := (block_coords t).2.2.2.2.2.2.2.2.1; have := p.isLt; omega⟩

/-- The point of `y` that column `q` of the tile at grid point `t` belongs to. -/
def colPt (t : Fin cfg0.N) (q : Fin 1024) : Fin 8192 :=
  ⟨win0_4.index t (1 : Fin 2) * 1024 + q.val, by
    have h := (block_coords t).2.2.2.2.2.2.2.2.2; have := q.isLt; omega⟩

/-! ## The staged blocks, read at an entry -/

/-- The block of `x` at a grid point, at row `p`, coordinate `k`: point `rowPt t p` of `x`. -/
theorem xs_read (c : Dev nD) (t : Fin cfg0.N) (p : Fin 1024) (k : Fin 64) :
    (iblk m c 0 t : Vec Ideal S1024x64 .f32) (ix2 p k) = xarr m c (ix2 (rowPt t p) k) := by
  obtain ⟨e00, e01, -⟩ := block_coords t
  show V m c main_arg0 (((cfg0.win 0).blk t).view.emb (ix2 p k)) = _
  rw [V_main_arg0]
  refine congrArg (xarr m c) (funext fun ax => Fin.ext ?_)
  match ax with
  | ⟨0, _⟩ => show win0_0.index t (0 : Fin 2) * 1024 + 1 * p.val = win0_4.index t (0 : Fin 2) * 1024 + p.val; omega
  | ⟨1, _⟩ => show win0_0.index t (1 : Fin 2) * 64 + 1 * k.val = k.val; omega

/-- The block of `y` at a grid point, at row `q`, coordinate `k`: point `colPt t q` of `y`. -/
theorem ys_read (c : Dev nD) (t : Fin cfg0.N) (q : Fin 1024) (k : Fin 64) :
    (iblk m c 1 t : Vec Ideal S1024x64 .f32) (ix2 q k) = yarr m c (ix2 (colPt t q) k) := by
  obtain ⟨-, -, e10, e11, -⟩ := block_coords t
  show V m c main_arg1 (((cfg0.win 1).blk t).view.emb (ix2 q k)) = _
  rw [V_main_arg1]
  refine congrArg (yarr m c) (funext fun ax => Fin.ext ?_)
  match ax with
  | ⟨0, _⟩ => show win0_1.index t (0 : Fin 2) * 1024 + 1 * q.val = win0_4.index t (1 : Fin 2) * 1024 + q.val; omega
  | ⟨1, _⟩ => show win0_1.index t (1 : Fin 2) * 64 + 1 * k.val = k.val; omega

/-- The piece of the column of norms at a grid point, at row `p`: the squared norm of point `rowPt t p` of `x`. -/
theorem xn_read (c : Dev nD) (t : Fin cfg0.N) (p : Fin 1024) :
    (iblk m c 2 t : Vec Ideal S1024x1 .f32) (ix2 p (0 : Fin 1)) = sqnorm (xarr m c) (rowPt t p) := by
  obtain ⟨-, -, -, -, e20, e21, -⟩ := block_coords t
  rw [← V_xnorms_apply m c (rowPt t p)]
  show V m c main_v2 (((cfg0.win 2).blk t).view.emb (ix2 p (0 : Fin 1))) = _
  refine congrArg (V m c main_v2 : S8192x1.Idx → EReal) (funext fun ax => Fin.ext ?_)
  match ax with
  | ⟨0, _⟩ => show win0_2.index t (0 : Fin 2) * 1024 + 1 * p.val = win0_4.index t (0 : Fin 2) * 1024 + p.val; omega
  | ⟨1, _⟩ => show win0_2.index t (1 : Fin 2) * 1 + 1 * 0 = 0; omega

/-- The piece of the row of norms at a grid point, at column `q`: the squared norm of point `colPt t q` of `y`. -/
theorem yn_read (c : Dev nD) (t : Fin cfg0.N) (q : Fin 1024) :
    (iblk m c 3 t : Vec Ideal S1x1024 .f32) (ix2 (0 : Fin 1) q) = sqnorm (yarr m c) (colPt t q) := by
  obtain ⟨-, -, -, -, -, -, e30, e31, -⟩ := block_coords t
  rw [← V_ynorms_apply m c (colPt t q)]
  show V m c main_v6 (((cfg0.win 3).blk t).view.emb (ix2 (0 : Fin 1) q)) = _
  refine congrArg (V m c main_v6 : S1x8192.Idx → EReal) (funext fun ax => Fin.ext ?_)
  match ax with
  | ⟨0, _⟩ => show win0_3.index t (0 : Fin 2) * 1 + 1 * 0 = 0; omega
  | ⟨1, _⟩ => show win0_3.index t (1 : Fin 2) * 1024 + 1 * q.val = win0_4.index t (1 : Fin 2) * 1024 + q.val; omega

/-- Where entry `(p, q)` of the tile at grid point `t` lies in the result. -/
theorem tile_pos (t : Fin cfg0.N) (p q : Fin 1024) :
    (((cfg0.win 4).blk t).view.emb (ix2 p q) : S8192x8192.Idx) = ix2 (rowPt t p) (colPt t q) :=
  funext fun ax => Fin.ext (by
    match ax with
    | ⟨0, _⟩ => show win0_4.index t (0 : Fin 2) * 1024 + 1 * p.val = win0_4.index t (0 : Fin 2) * 1024 + p.val; omega
    | ⟨1, _⟩ => show win0_4.index t (1 : Fin 2) * 1024 + 1 * q.val = win0_4.index t (1 : Fin 2) * 1024 + q.val; omega)

/-! ## What a grid point writes back -/

/-- The tile written back at grid point `t` is block `t` of the specification's kernel matrix of the argument
    arrays. -/
theorem flushed_eq (c : Dev nD) (t : Fin cfg0.N) :
    (dats m 0 c).flushed 4 t = ((cfg0.win 4).blk t).view.read (Elt Ideal) (gram (xarr m c) (yarr m c)) := by
  rw [Value.flushed4]
  unfold out0_4
  rw [View.canon_unit_zero zero_offsets]
  simp only [View.ld_unit_zero (S := S1024x64) zero_offsets, View.ld_unit_zero (S := S1024x1) zero_offsets,
    View.ld_unit_zero (S := S1x1024) zero_offsets]
  funext j
  obtain ⟨p, q, rfl⟩ : ∃ (p q : Fin 1024), j = ix2 p q := ⟨j 0, j 1, eq_ix2 j⟩
  show k0_pay1 (F := Ideal) (iblk m c 0 t) (iblk m c 1 t) (iblk m c 2 t) (iblk m c 3 t) (ix2 p q)
    = gram (xarr m c) (yarr m c) (((cfg0.win 4).blk t).view.emb (ix2 p q))
  rw [tile_pos, gram_apply]
  refine (tile_apply (iblk m c 0 t) (iblk m c 1 t) (iblk m c 2 t) (iblk m c 3 t) p q).trans ?_
  rw [xn_read m c t p, yn_read m c t q]
  unfold entry distSq Cert.Rbf.inner
  refine congrArg (fun s => Ideal.exp (Ideal.ofBits .f32 0xBF800000#32
    * max ((sqnorm (xarr m c) (rowPt t p) + sqnorm (yarr m c) (colPt t q)) - Ideal.ofBits .f32 0x40000000#32 * s)
        (Ideal.ofBits .f32 0x00000000#32))) (Finset.sum_congr rfl fun k _ => ?_)
  rw [xs_read m c t p k, ys_read m c t q k]

/-! ## The tiles cover the matrix -/

/-- An index of the result is in the tile of grid point `t` iff each coordinate is in the tile's range on its axis. -/
theorem mem_tile (t : Fin cfg0.N) (i : S8192x8192.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v7).slice (win0_4.rect t)).set ↔ _
  rw [View.set_slice_whole, Rect.mem_set_unit]
  exact Iff.rfl

/-- Every entry of the result lies in the tile of some grid point, which writes it back: row `r`, column `s` in the
    tile at block coordinates `(r / 1024, s / 1024)`. -/
theorem tiles_cover (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := block_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_tile]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-! ## The result array, and the run -/

/-- After the run the result array is the specification's kernel matrix of the argument arrays. -/
theorem result_eq_gram (c : Dev nD) : (dats m 0 c).arrAt 4 cfg0.N = gram (xarr m c) (yarr m c) :=
  (dats m 0 c).arrAt_eq_of_cover 4 (gram (xarr m c) (yarr m c)) (fun t _ => flushed_eq m c t) tiles_cover

/-- Every weakly fair execution of the kernel's program terminates with the result array at the specification's
    kernel matrix of the argument arrays, and the arguments unchanged. -/
theorem run : θ_run defs (onTc (τ := τ) (main (F := Ideal))) ⟨m, fun _ => 0, ρ⟩ fun r => ∀ c : Dev nD,
      r.2.mem ((c : Thread nD τ).loc main_v7) = gram (xarr m c) (yarr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq_gram m c), (h c).2⟩) (Value.run_blocks m ρ)

end Cert.KernelIdeal.GramValue

end
-- ==== Proof.lean ====
/-
  A tiled Gaussian (radial basis function) kernel matrix against its plain array reference.

  For two sets of 8192 points in 64 coordinates, `x` and `y`, both programs compute the 8192 × 8192 matrix

      K[b, a] = exp (−1 · max ((‖x_b‖² + ‖y_a‖²) − 2 · ⟨x_b, y_a⟩) 0),

  the squared distance by its expansion into norms and an inner product, floored at zero. The reference does it with
  whole-array operations. The kernel forms the two vectors of squared norms with whole-array operations too, and then
  cuts the matrix into 8 × 8 tiles of 1024 × 1024: each tile is one matrix product of a block of `x` with a block of
  `y` (their coordinates narrowed to a shorter float format first, which changes nothing over the extended reals),
  the block's norms added along rows and columns, and the same pointwise chain.

  Over the extended reals the two are the same function, and for a plain reason: entry by entry they evaluate the SAME
  expression, with the same literals in the same places and the sums over the same 64 coordinates. No algebraic law
  is used, so the inputs' finiteness is never needed. The proof is therefore bookkeeping of WHERE things are read:

  * `RbfSpec` states the matrix as one function `gram x y` of the two point sets;
  * `ReferenceGram`: the reference's last stage, read at an index through each of its operations, is `gram`;
  * `TileEntry`: the kernel body's stored tile at entry `(p, q)`, from the four blocks it loads
    (with `LibBroadcastColumn` for the column of norms repeated along the columns);
  * `KernelNorms`: the two arrays of norms the region is launched on, read at a point;
  * `KernelGram`: the tile at grid point `(I, J)` is block `(I, J)` of `gram`, the 64 tiles cover the matrix, so the
    result array after the run is `gram` of the arguments.

  The three frames are the generated ones (the reference's is its run with the result dropped); the idealized kernel
  is the printed kernel's own text read over the extended reals, no operation rewritten, so there is nothing to
  preserve.
-/
import proofs.«103255_j65481071407813_1_alg».proof.Defs
import proofs.«103255_j65481071407813_1_alg».proof.Proof.Gen.Kernel
import proofs.«103255_j65481071407813_1_alg».proof.Proof.Gen.Kernel.Skeleton
import proofs.«103255_j65481071407813_1_alg».proof.Proof.Gen.Kernel.Launch
import proofs.«103255_j65481071407813_1_alg».proof.Proof.Gen.Kernel.Points
import proofs.«103255_j65481071407813_1_alg».proof.Proof.Gen.Kernel.Frame
import proofs.«103255_j65481071407813_1_alg».proof.Proof.Gen.KernelIdeal
import proofs.«103255_j65481071407813_1_alg».proof.Proof.Gen.KernelIdeal.Skeleton
import proofs.«103255_j65481071407813_1_alg».proof.Proof.Gen.KernelIdeal.Launch
import proofs.«103255_j65481071407813_1_alg».proof.Proof.Gen.KernelIdeal.Points
import proofs.«103255_j65481071407813_1_alg».proof.Proof.Gen.KernelIdeal.Frame
import proofs.«103255_j65481071407813_1_alg».proof.Proof.Gen.ReferenceIdeal
import proofs.«103255_j65481071407813_1_alg».proof.Proof.Gen.Pre_finite_inputs
import proofs.«103255_j65481071407813_1_alg».proof.Proof.Gen.KernelIdeal.Value
import proofs.«103255_j65481071407813_1_alg».proof.Proof.Gen.ReferenceIdeal.Run
import proofs.«103255_j65481071407813_1_alg».proof.Proof.Gen.ReferenceIdeal.Read
import proofs.«103255_j65481071407813_1_alg».proof.Proof.RbfSpec
import proofs.«103255_j65481071407813_1_alg».proof.Proof.ReferenceGram
import proofs.«103255_j65481071407813_1_alg».proof.Proof.KernelGram
import Idealize.ShloMosaic.Adequacy
import Idealize.ShloMosaic.Init

noncomputable section

namespace Cert.Proof

open Idealize.ShloMosaic Idealize.SL.Sem

/-- The printed kernel runs and leaves its arguments unchanged: the generated frame. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments unchanged: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten when the kernel was read over the extended reals. -/
theorem preserves : Cert.preserves_Kernel_KernelIdeal := trivial

/-- From memories agreeing on the two point sets, the kernel's result array ends at `gram` of them (the tiles put
    together) and the reference's at its last stage, which is `gram` of them too. -/
theorem algebraic : Cert.algebraic_KernelIdeal_ReferenceIdeal := by
  intro m ρ m' ρ' _ hagree
  refine ⟨fun c => Cert.Rbf.gram (Cert.KernelIdeal.Norms.xarr m c) (Cert.KernelIdeal.Norms.yarr m c),
    Cert.KernelIdeal.GramValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq_gram, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
